-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S8x1x32 : Shape := ⟨3, ![8, 1, 32]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S8x1x32 : S_.BroadcastsInDim S8x1x32 (![] : Fin 0 → Fin S8x1x32.rank)
  reducesTo_S8x1x32_S_d0_1_2 : S8x1x32.ReducesTo [0, 1, 2] S_

variable [Facts]

def fn {F : FTy → Type} [FloatOps F] (main_arg0 : FVec F S16384x8192 .f32) (main_arg1 : FVec F S8x1x32 .f32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  let main_v4 : FVec F S8x1x32 .f32 := Host.absf main_arg1
  let main_cst_0 : FVec F S_ .f32 := constant S_ .f32 0x7F800000#32
  let main_v5 : FVec F S8x1x32 .f32 := broadcastInDim S8x1x32 ![] bcast_S_S8x1x32 main_cst_0
  let main_v6 : IVec S8x1x32 1 := cmpf .olt main_v4 main_v5
  let main_c_1 : IVec S_ 1 := constantI S_ 1 1#1
  let main_v7 : IVec S_ 1 := (fun x v => Host.reduce IntOp.andi x v reducesTo_S8x1x32_S_d0_1_2 h_S_) main_v6 main_c_1
  let main_v8 : IVec S_ 1 := andi main_v3 main_v7
  main_v8
-- ==== Kernel.lean ====
abbrev S16384x8192 : Shape := ⟨2, ![16384, 8192]⟩
abbrev S8x1x32 : Shape := ⟨3, ![8, 1, 32]⟩
abbrev S8x32 : Shape := ⟨2, ![8, 32]⟩
abbrev S32x8 : Shape := ⟨2, ![32, 8]⟩
abbrev S16384x8 : Shape := ⟨2, ![16384, 8]⟩
abbrev S512x8192 : Shape := ⟨2, ![512, 8192]⟩
abbrev S512x8 : Shape := ⟨2, ![512, 8]⟩
abbrev S512x256x32 : Shape := ⟨3, ![512, 256, 32]⟩
abbrev S512x32 : Shape := ⟨2, ![512, 32]⟩

abbrev nBuf : Space → Nat
  | .hbm => 5
  | .vmem => 5
  | .smem => 0
  | _ => 0

abbrev bufTy : (tb : Table) → Fin (tcTables nBuf tb) → BufTy
  | .hbm, ⟨0, _⟩ => ⟨S16384x8192, .f32⟩
  | .hbm, ⟨1, _⟩ => ⟨S8x1x32, .f32⟩
  | .hbm, ⟨2, _⟩ => ⟨S8x32, .f32⟩
  | .hbm, ⟨3, _⟩ => ⟨S32x8, .f32⟩
  | .hbm, ⟨4, _⟩ => ⟨S16384x8, .f32⟩
  | .local _ .vmem, ⟨0, _⟩ => ⟨S512x8192, .f32⟩
  | .local _ .vmem, ⟨1, _⟩ => ⟨S512x8192, .f32⟩
  | .local _ .vmem, ⟨2, _⟩ => ⟨S32x8, .f32⟩
  | .local _ .vmem, ⟨3, _⟩ => ⟨S512x8, .f32⟩
  | .local _ .vmem, ⟨4, _⟩ => ⟨S512x8, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x1x32_S8x32 : S8x1x32.ShapeCasts S8x32
  transposes_S8x32_S32x8_1_0 : S8x32.Transposes [1, 0] S32x8
  inb_S512x8192_S512x8192_0_0 : ∀ a, (![0, 0] : Fin 2 → Nat) a + S512x8192.size a ≤ S512x8192.size a
  h_S512x8192 : 0 < S512x8192.numel
  shapeCasts_S512x8192_S512x256x32 : S512x8192.ShapeCasts S512x256x32
  reduces_S512x256x32_S512x32 : S512x256x32.Reduces [1] S512x32
  inb_S32x8_S32x8_0_0 : ∀ a, (![0, 0] : Fin 2 → Nat) a + S32x8.size a ≤ S32x8.size a
  h_S32x8 : 0 < S32x8.numel
  shapeCasts_S32x8_S32x8 : S32x8.ShapeCasts S32x8
  inb_S512x8_S512x8_0_0 : ∀ a, (![0, 0] : Fin 2 → Nat) a + S512x8.size a ≤ S512x8.size a
  h_S512x8 : 0 < S512x8.numel
  dot_S512x32_S32x8_S512x8_1_0_0_1_n_n_wf : DotDims.WF S512x32 S32x8 S512x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S16384x8192.size a
  hwx0_0 : ∀ i : grid0.Coords, EltTy.bits .f32 = 32 ∨ (Rect.block (s := S16384x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x8.size a ≤ S32x8.size a
  hwx0_1 : ∀ i : grid0.Coords, EltTy.bits .f32 = 32 ∨ (Rect.block (s := S32x8) S32x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8.size a ≤ S16384x8.size a
  hwx0_2 : ∀ i : grid0.Coords, EltTy.bits .f32 = 32 ∨ (Rect.block (s := S16384x8) S512x8.size (cc0_transform_2 i) (hinb0_2 i)).WholeWords (EltTy.packing .f32)

variable [Facts₀]

def dot_S512x32_S32x8_S512x8_1_0_0_1_n_n : DotDims S512x32 S32x8 S512x8 where
  lhsContracting := [1]
  rhsContracting := [0]
  lhsNonContracting := [0]
  rhsNonContracting := [1]
  lhsBatch := []
  rhsBatch := []
  wf := dot_S512x32_S32x8_S512x8_1_0_0_1_n_n_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x8192 : Shape := ⟨2, ![16384, 8192]⟩
abbrev S8x1x32 : Shape := ⟨3, ![8, 1, 32]⟩
abbrev S16384x256x32 : Shape := ⟨3, ![16384, 256, 32]⟩
abbrev S_ : Shape := ⟨0, ![]⟩
abbrev S16384x32 : Shape := ⟨2, ![16384, 32]⟩
abbrev S8x32 : Shape := ⟨2, ![8, 32]⟩
abbrev S16384x8 : Shape := ⟨2, ![16384, 8]⟩

abbrev nBuf : Space → Nat
  | .hbm => 7
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S8x1x32, .f32⟩
  | .hbm, ⟨2, _⟩ => ⟨S16384x256x32, .f32⟩
  | .hbm, ⟨3, _⟩ => ⟨S_, .f32⟩
  | .hbm, ⟨4, _⟩ => ⟨S16384x32, .f32⟩
  | .hbm, ⟨5, _⟩ => ⟨S8x32, .f32⟩
  | .hbm, ⟨6, _⟩ => ⟨S16384x8, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S16384x8192_S16384x256x32 : S16384x8192.ShapeCasts S16384x256x32
  reducesTo_S16384x256x32_S16384x32_d1 : S16384x256x32.ReducesTo [1] S16384x32
  h_S_ : 0 < S_.numel
  shapeCasts_S8x1x32_S8x32 : S8x1x32.ShapeCasts S8x32
  dot_S16384x32_S8x32_S16384x8_1_1_0_0_n_n_wf : DotDims.WF S16384x32 S8x32 S16384x8 [1] [1] [0] [0] [] []

variable [Facts₀]

def dot_S16384x32_S8x32_S16384x8_1_1_0_0_n_n : DotDims S16384x32 S8x32 S16384x8 where
  lhsContracting := [1]
  rhsContracting := [1]
  lhsNonContracting := [0]
  rhsNonContracting := [0]
  lhsBatch := []
  rhsBatch := []
  wf := dot_S16384x32_S8x32_S16384x8_1_1_0_0_n_n_wf

class Facts : Prop extends Facts₀ where

variable [Facts]
-- ==== Proof.PatchSpec.lean ====
/-
  What the patch router computes, as one function of the two argument arrays.

  A row of `x` has 8192 entries, read as 256 consecutive patches of 32. The router first adds the
  256 patches of a row entry by entry (the 32 patch sums of the row), then takes, for each of the 8
  output channels, the inner product of those 32 sums with that channel's 32 weights:

      routed x w (b, o) = ∑ k < 32, (∑ p < 256, x (b, 32 p + k)) · w (o, 0, k).

  Both programs of this certificate end with this array; the sums are finite sums of extended
  reals, so their order and grouping do not matter and no finiteness of the inputs is used.
-/
import Idealize.ShloMosaic.PureOps.Ideal
import Idealize.ShloMosaic.Lib.ValueIdx

noncomputable section

open scoped BigOperators

namespace Cert.PatchRouter

open Idealize.ShloMosaic Idealize.ShloMosaic.ValueIdx

/-- Entry `k` of patch `p` of a row sits in column `32 p + k`. -/
def col (p : Fin 256) (k : Fin 32) : Fin 8192 := ⟨32 * p.val + k.val, by omega⟩

@[simp] theorem col_val (p : Fin 256) (k : Fin 32) : (col p k).val = 32 * p.val + k.val := rfl

/-- Entry `k` of the sum of a row's 256 patches. -/
def patchSum (x : (⟨2, ![16384, 8192]⟩ : Shape).Idx → EReal) (b : Fin 16384) (k : Fin 32) : EReal :=
  ∑ p : Fin 256, x (ix2 b (col p k))

/-- The routed array: channel `o` of row `b` is the inner product of the row's patch sums with the
    channel's weights. -/
def routed (x : (⟨2, ![16384, 8192]⟩ : Shape).Idx → EReal) (w : (⟨3, ![8, 1, 32]⟩ : Shape).Idx → EReal) :
    (⟨2, ![16384, 8]⟩ : Shape).Idx → EReal :=
  fun i => ∑ k : Fin 32, patchSum x (i 0) k * w (ix3 (i 1) 0 k)

theorem routed_apply (x : (⟨2, ![16384, 8192]⟩ : Shape).Idx → EReal) (w : (⟨3, ![8, 1, 32]⟩ : Shape).Idx → EReal)
    (b : Fin 16384) (o : Fin 8) :
    routed x w (ix2 b o) = ∑ k : Fin 32, (∑ p : Fin 256, x (ix2 b (col p k))) * w (ix3 o 0 k) := rfl

end Cert.PatchRouter

end
-- ==== Proof.PatchRef.lean ====
/-
  The reference program's result is the routed array.

  The reference reshapes each row of `x` to 256 patches of 32, sums over the patch axis starting
  from zero, squeezes the weights to 8 × 32 and contracts the 32 patch sums against each channel's
  32 weights. Read one operation at a time at an index:
  the contraction at (b, o) is the sum over k of (patch sum (b, k)) · (weight (o, k));
  patch sum (b, k) is 0 plus the sum over p of the reshaped row at (b, p, k);
  the reshaped row at (b, p, k) is x at (b, 32 p + k), because position (b·256 + p)·32 + k of the
  row-major order is b·8192 + (32 p + k); the squeezed weight at (o, k) is w at (o, 0, k).
  That is `routed x w` term by term.
-/
import proofs.«115031_j23510650978886_1_alg».proof.Proof.Gen.ReferenceIdeal.Read
import proofs.«115031_j23510650978886_1_alg».proof.Proof.PatchSpec

noncomputable section

open scoped BigOperators

namespace Cert.PatchRouter.Ref

open Cert.ReferenceIdeal Cert.ReferenceIdeal.Read Idealize.ShloMosaic Idealize.ShloMosaic.ValueIdx Cert.PatchRouter

/-- Through the reshape, the contraction's row index and the patch sum's patch index, entry (b, p, k)
    of the patches is `x` at row b, column 32 p + k. -/
theorem patch_entry (b : Fin 16384) (o : Fin 8) (k : Fin 32) (p : Fin 256) :
    idx_main_v0 (idx_main_v1 (lidx_main_v3 (ix2 b o) k) p) = ix2 b (col p k) := by
  have hb := b.isLt; have hk := k.isLt; have hp := p.isLt
  funext a; apply Fin.ext
  match a with
  | ⟨0, _⟩ => show ((b.val * 256 + p.val) * 32 + k.val) / 8192 = b.val; omega
  | ⟨1, _⟩ => show ((b.val * 256 + p.val) * 32 + k.val) % 8192 = 32 * p.val + k.val; omega

/-- Through the squeeze and the contraction's column index, entry (o, k) of the squeezed weights is `w` at (o, 0, k). -/
theorem weight_entry (b : Fin 16384) (o : Fin 8) (k : Fin 32) :
    idx_main_v2 (ridx_main_v3 (ix2 b o) k) = ix3 o 0 k := by
  have ho := o.isLt; have hk := k.isLt
  funext a; apply Fin.ext
  match a with
  | ⟨0, _⟩ => show (o.val * 32 + k.val) / 32 = o.val; omega
  | ⟨1, _⟩ => rfl
  | ⟨2, _⟩ => show (o.val * 32 + k.val) % 32 = k.val; omega

/-- The reference's last stage is the routed array of its two arguments. -/
theorem reference_eq (x : (⟨S16384x8192, .f32⟩ : BufTy).Contents (Elt Ideal)) (w : (⟨S8x1x32, .f32⟩ : BufTy).Contents (Elt Ideal)) :
    val_main_v3 (F := Ideal) x w = routed x w := by
  funext i
  obtain ⟨b, o, rfl⟩ : ∃ (b : Fin 16384) (o : Fin 8), i = ix2 b o := ⟨i 0, i 1, eq_ix2 i⟩
  rw [val_main_v3_apply, routed_apply]
  refine Finset.sum_congr rfl fun k _ => ?_
  rw [val_main_v1_apply, val_main_v2_apply, val_main_cst_apply, weight_entry]
  congr 1
  refine (congrArg (· + _) Ideal.ofBits_zero_f32).trans ?_
  rw [zero_add]
  refine Finset.sum_congr rfl fun p _ => ?_
  rw [val_main_v0_apply, patch_entry]

end Cert.PatchRouter.Ref

end
-- ==== Proof.PatchBlock.lean ====
/-
  One grid step of the kernel, index by index.

  A step loads a block of 512 rows of `x` and the 32 × 8 weight block, views each row as 256 patches
  of 32, sums over the patch axis, and multiplies the 512 × 32 patch sums by the weight block into
  a zero accumulator. At entry (r, o) of the 512 × 8 result that is

      ∑ k < 32, (∑ p < 256, rows (r, 32 p + k)) · weights (k, o):

  the matrix product into zero is the sum over the contracted index of the products of the two
  factors; the left factor at (r, k) is the lane sum over p of the reshaped block at (r, p, k),
  which is the block at (r, 32 p + k) (same row-major position); the right factor's reshape keeps
  its shape.
-/
import proofs.«115031_j23510650978886_1_alg».proof.Proof.Gen.KernelIdeal.Skeleton
import proofs.«115031_j23510650978886_1_alg».proof.Proof.PatchSpec
import Idealize.ShloMosaic.PureOps.Ideal.Laws
import Idealize.ShloMosaic.Lib.ValueIdx
import Idealize.ShloMosaic.Lib.Pipeline.Value

noncomputable section

open scoped BigOperators

namespace Cert.PatchRouter.Block

open Cert.KernelIdeal Cert.KernelIdeal.Gen Idealize.ShloMosaic Idealize.ShloMosaic.ValueIdx Cert.PatchRouter

/-! ## The product's operand indices: rows × contraction, contraction × columns -/

theorem lhs_row (i : S512x8.Idx) (q : dot_S512x32_S32x8_S512x8_1_0_0_1_n_n.contr.Idx) :
    (dot_S512x32_S32x8_S512x8_1_0_0_1_n_n.lhsIdx i q 0).val = (i 0).val := by
  unfold DotDims.lhsIdx
  rw [dif_neg (show ¬(0 : Fin S512x32.rank) ∈ dot_S512x32_S32x8_S512x8_1_0_0_1_n_n.lhsBatch by decide), dif_pos (show (0 : Fin S512x32.rank) ∈ dot_S512x32_S32x8_S512x8_1_0_0_1_n_n.lhsNonContracting by decide)]
  rfl
theorem lhs_contr (i : S512x8.Idx) (q : dot_S512x32_S32x8_S512x8_1_0_0_1_n_n.contr.Idx) :
    (dot_S512x32_S32x8_S512x8_1_0_0_1_n_n.lhsIdx i q 1).val = (q ⟨0, by decide⟩).val :=
  dot_S512x32_S32x8_S512x8_1_0_0_1_n_n.lhsIdx_val_of_single rfl i q
theorem rhs_contr (i : S512x8.Idx) (q : dot_S512x32_S32x8_S512x8_1_0_0_1_n_n.contr.Idx) :
    (dot_S512x32_S32x8_S512x8_1_0_0_1_n_n.rhsIdx i q 0).val = (q ⟨0, by decide⟩).val :=
  dot_S512x32_S32x8_S512x8_1_0_0_1_n_n.rhsIdx_val_of_single rfl i q
theorem rhs_col (i : S512x8.Idx) (q : dot_S512x32_S32x8_S512x8_1_0_0_1_n_n.contr.Idx) :
    (dot_S512x32_S32x8_S512x8_1_0_0_1_n_n.rhsIdx i q 1).val = (i 1).val := by
  unfold DotDims.rhsIdx
  rw [dif_neg (show ¬(1 : Fin S32x8.rank) ∈ dot_S512x32_S32x8_S512x8_1_0_0_1_n_n.rhsBatch by decide), dif_pos (show (1 : Fin S32x8.rank) ∈ dot_S512x32_S32x8_S512x8_1_0_0_1_n_n.rhsNonContracting by decide)]
  rfl

/-! ## The patch sums of a block -/

/-- Entry (r, k) of the lane sum over the patch axis of the reshaped block is the sum over the 256
    patches of the block's row r at column 32 p + k. -/
theorem patch_sums (v0 : FVec Ideal S512x8192 .f32) (r : Fin 512) (k : Fin 32)
    (hacc : (0x00000000#32 : BitVec 32) = FKind.add.neutral .f32 (.inl rfl)) :
    multiReduction .add [1] S512x32 (shapeCast S512x256x32 v0 shapeCasts_S512x8192_S512x256x32) 0x00000000#32
        reduces_S512x256x32_S512x32 (.inl rfl) hacc (ix2 r k)
      = ∑ p : Fin 256, v0 (ix2 r (col p k)) := by
  refine (Ideal.multiReduction_add_single _ 0x00000000#32 reduces_S512x256x32_S512x32 (.inl rfl) hacc (ix2 r k)).trans ?_
  refine Finset.sum_congr rfl fun p _ => ?_
  have hr := r.isLt; have hk := k.isLt; have hp := p.isLt
  exact shapeCast_apply v0 shapeCasts_S512x8192_S512x256x32 _ (ix2 r (col p k))
    (by rewrite [Shape.rowMajor_val_two, Shape.rowMajor_val_three]
        show r.val * 8192 + (32 * p.val + k.val) = (r.val * 256 + p.val) * 32 + k.val
        omega)

/-! ## The step's result -/

/-- Entry (r, o) of what a step stores: the inner product of row r's patch sums with column o of
    the weight block. -/
theorem step_apply (v0 : FVec Ideal S512x8192 .f32) (v3 : FVec Ideal S32x8 .f32) (r : Fin 512) (o : Fin 8) :
    k0_pay1 (F := Ideal) v0 v3 (ix2 r o)
      = ∑ k : Fin 32, (∑ p : Fin 256, v0 (ix2 r (col p k))) * v3 (ix2 k o) := by
  unfold k0_pay1
  dsimp only
  refine (Ideal.matmul_constant_zero_apply dot_S512x32_S32x8_S512x8_1_0_0_1_n_n (some .fp32) _ _ (ix2 r o)).trans ?_
  rw [← Equiv.sum_comp (contrEquiv1 dot_S512x32_S32x8_S512x8_1_0_0_1_n_n 32 rfl rfl).symm]
  refine Finset.sum_congr rfl fun k _ => ?_
  have hk := contrEquiv1_symm_val dot_S512x32_S32x8_S512x8_1_0_0_1_n_n 32 rfl rfl k
  have el : dot_S512x32_S32x8_S512x8_1_0_0_1_n_n.lhsIdx (ix2 r o) ((contrEquiv1 dot_S512x32_S32x8_S512x8_1_0_0_1_n_n 32 rfl rfl).symm k) = ix2 r k := funext fun a => Fin.ext (by
    match a with
    | ⟨0, _⟩ => exact lhs_row _ _
    | ⟨1, _⟩ => exact (lhs_contr _ _).trans hk)
  have er : dot_S512x32_S32x8_S512x8_1_0_0_1_n_n.rhsIdx (ix2 r o) ((contrEquiv1 dot_S512x32_S32x8_S512x8_1_0_0_1_n_n 32 rfl rfl).symm k) = ix2 k o := funext fun a => Fin.ext (by
    match a with
    | ⟨0, _⟩ => exact (rhs_contr _ _).trans hk
    | ⟨1, _⟩ => exact rhs_col _ _)
  rw [el, er, shapeCast_self]
  exact congrArg (· * v3 (ix2 k o)) (patch_sums v0 r k rfl)

end Cert.PatchRouter.Block

end
-- ==== Proof.PatchWhole.lean ====
/-
  From the blocks to the whole array: after the kernel's run its result array is the routed array.

  The grid has 32 steps. Step t reads rows 512 t … 512 t + 511 of `x` (all 8192 columns) and the
  whole 32 × 8 weight block, and writes rows 512 t … 512 t + 511 of the 16384 × 8 result. The weight
  block the region finds is the squeezed weights transposed, so its entry (k, o) is w (o, 0, k).
  Hence what step t writes back at (r, o) is

      ∑ k < 32, (∑ p < 256, x (512 t + r, 32 p + k)) · w (o, 0, k),

  which is the routed array at (512 t + r, o): each step writes its block of ONE whole-array
  function. Row b lies in step b / 512's block, so the 32 blocks cover the result array, and the
  array after the run is that function.
-/
import proofs.«115031_j23510650978886_1_alg».proof.Proof.Gen.KernelIdeal.Value
import proofs.«115031_j23510650978886_1_alg».proof.Proof.PatchBlock
import Idealize.ShloMosaic.Lib.StableHlo.Run
import Idealize.ShloMosaic.Lib.Pipeline.Value
import Idealize.ShloMosaic.Lib.ValueIdx

set_option maxRecDepth 16384

noncomputable section

open scoped BigOperators

namespace Cert.PatchRouter.Whole

open Cert.KernelIdeal Cert.KernelIdeal.Gen Idealize.ShloMosaic Idealize.ShloMosaic.TcCoe Idealize.SL.Sem
open Idealize.ShloMosaic.ValueIdx Cert.PatchRouter
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-! ## Where each step's blocks sit -/

/-- The block indices over the grid: step t takes row block t of `x` and of the result, column
    block 0 of both, and the one block of the weights. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem step_lt (t : Fin cfg0.N) : t.val < 32 := by
  have h : t.val < grid0.N := t.isLt
  rw [N_0] at h
  exact h

/-! ## The weight block as the region finds it -/

/-- Before the region the program squeezes the weights to 8 × 32 and transposes them. -/
theorem weights_entry (c : Dev nD) :
    (V m c main_v1 : S32x8.Idx → EReal)
      = transpose S32x8 [1, 0] (shapeCast S8x32 (m ((c : Thread nD τ).loc main_arg1)) shapeCasts_S8x1x32_S8x32) transposes_S8x32_S32x8_1_0 := by
  dsimp only [Gen.V, Gen.hostOps0]; after_results; rfl

/-- So its entry (k, o) is w (o, 0, k). -/
theorem weights_at (c : Dev nD) (k : Fin 32) (o : Fin 8) :
    (V m c main_v1 : S32x8.Idx → EReal) (ix2 k o) = m ((c : Thread nD τ).loc main_arg1) (ix3 o 0 k) := by
  rw [weights_entry]
  have ho := o.isLt; have hk := k.isLt
  refine (transpose_apply [1, 0] _ transposes_S8x32_S32x8_1_0 (ix2 k o) (ix2 o k) ?_).trans ?_
  · intro b
    match b with
    | ⟨0, _⟩ => rfl
    | ⟨1, _⟩ => rfl
  · exact shapeCast_apply _ shapeCasts_S8x1x32_S8x32 (ix2 o k) (ix3 o 0 k)
      (by rewrite [Shape.rowMajor_val_three, Shape.rowMajor_val_two]
          show (o.val * 1 + 0) * 32 + k.val = o.val * 32 + k.val
          omega)

/-! ## The two input blocks of a step, read at an entry -/

/-- Entry (r, j) of step t's block of `x` is x (512 t + r, j). -/
theorem rows_read (c : Dev nD) (t : Fin cfg0.N) (r : Fin 512) (j : Fin 8192) (h : 512 * t.val + r.val < 16384) :
    iblk m c 0 t (ix2 r j) = m ((c : Thread nD τ).loc main_arg0) (ix2 ⟨512 * t.val + r.val, h⟩ j) := by
  show V m c main_arg0 (((cfg0.win 0).blk t).view.emb (ix2 r j)) = _
  rw [V_main_arg0]
  obtain ⟨e0, e1, -⟩ := block_index t
  refine congrArg _ (funext fun a => Fin.ext ?_)
  match a with
  | ⟨0, _⟩ => show win0_0.index t (0 : Fin 2) * 512 + 1 * r.val = 512 * t.val + r.val; omega
  | ⟨1, _⟩ => show win0_0.index t (1 : Fin 2) * 8192 + 1 * j.val = j.val; omega

/-- Entry (k, o) of step t's weight block is w (o, 0, k), at every step. -/
theorem weights_read (c : Dev nD) (t : Fin cfg0.N) (k : Fin 32) (o : Fin 8) :
    iblk m c 1 t (ix2 k o) = m ((c : Thread nD τ).loc main_arg1) (ix3 o 0 k) := by
  show V m c main_v1 (((cfg0.win 1).blk t).view.emb (ix2 k o)) = _
  have he : ((cfg0.win 1).blk t).view.emb (ix2 k o) = (ix2 k o : S32x8.Idx) := by
    obtain ⟨-, -, e2, e3, -⟩ := block_index t
    funext a; apply Fin.ext
    match a with
    | ⟨0, _⟩ => show win0_1.index t (0 : Fin 2) * 32 + 1 * k.val = k.val; omega
    | ⟨1, _⟩ => show win0_1.index t (1 : Fin 2) * 8 + 1 * o.val = o.val; omega
  rw [he]
  exact weights_at m c k o

/-! ## What a step writes back -/

/-- Step t writes back its block of the routed array of the two arguments. -/
theorem flushed_eq (c : Dev nD) (t : Fin cfg0.N) :
    (dats m 0 c).flushed 2 t
      = ((cfg0.win 2).blk t).view.read (Elt Ideal)
          (routed (m ((c : Thread nD τ).loc main_arg0)) (m ((c : Thread nD τ).loc main_arg1))) := by
  rw [Cert.KernelIdeal.Value.flushed2]
  unfold out0_2
  rw [View.canon_unit_zero zero_off]
  simp only [View.ld_unit_zero (S := S512x8192) zero_off, View.ld_unit_zero (S := S32x8) zero_off]
  funext j
  obtain ⟨r, o, rfl⟩ : ∃ (r : Fin 512) (o : Fin 8), j = ix2 r o := ⟨j 0, j 1, eq_ix2 j⟩
  have ht := step_lt t
  have hr := r.isLt
  have hrow : 512 * t.val + r.val < 16384 := by omega
  show k0_pay1 (F := Ideal) (iblk m c 0 t) (iblk m c 1 t) (ix2 r o)
    = routed (m ((c : Thread nD τ).loc main_arg0)) (m ((c : Thread nD τ).loc main_arg1)) (((cfg0.win 2).blk t).view.emb (ix2 r o))
  have he : ((cfg0.win 2).blk t).view.emb (ix2 r o) = (ix2 ⟨512 * t.val + r.val, hrow⟩ o : S16384x8.Idx) := by
    obtain ⟨-, -, -, -, e4, e5⟩ := block_index t
    funext a; apply Fin.ext
    match a with
    | ⟨0, _⟩ => show win0_2.index t (0 : Fin 2) * 512 + 1 * r.val = 512 * t.val + r.val; omega
    | ⟨1, _⟩ => show win0_2.index t (1 : Fin 2) * 8 + 1 * o.val = o.val; omega
  rw [he, routed_apply]
  refine (Block.step_apply (iblk m c 0 t) (iblk m c 1 t) r o).trans ?_
  refine Finset.sum_congr rfl fun k _ => ?_
  rw [weights_read m c t k o]
  refine congrArg (· * _) (Finset.sum_congr rfl fun p _ => ?_)
  exact rows_read m c t r (col p k) hrow

/-! ## The blocks cover the result array -/

/-- An entry of the result array is in step t's block iff each coordinate is in the block's range. -/
theorem mem_blk (t : Fin cfg0.N) (i : S16384x8.Idx) :
    i ∈ ((cfg0.win 2).blk t).view.set ↔ ∀ a : Fin 2, win0_2.index t a * S512x8.size a ≤ (i a).val ∧ (i a).val < win0_2.index t a * S512x8.size a + S512x8.size a := by
  show i ∈ ((View.whole main_v2).slice (win0_2.rect t)).set ↔ _
  rw [View.set_slice_whole, Rect.mem_set_unit]
  exact Iff.rfl

/-- Row b of the result is written by step b / 512. -/
theorem cover (i : S16384x8.Idx) :
    ∃ t : Fin cfg0.N, (cfg0.win 2).flush t = true ∧ i ∈ ((cfg0.win 2).blk t).view.set := by
  have hi0 : (i 0).val < 16384 := (i 0).isLt
  have hi1 : (i 1).val < 8 := (i 1).isLt
  have hN : (i 0).val / 512 < grid0.N := by rw [N_0]; omega
  refine ⟨⟨(i 0).val / 512, hN⟩, flush0_2 _, ?_⟩
  rw [mem_blk]
  obtain ⟨-, -, -, -, e4, e5⟩ := block_index ⟨(i 0).val / 512, hN⟩
  have e4' : win0_2.index ⟨(i 0).val / 512, hN⟩ (0 : Fin 2) = (i 0).val / 512 := e4
  intro a
  match a with
  | ⟨0, _⟩ =>
    show win0_2.index ⟨(i 0).val / 512, hN⟩ (0 : Fin 2) * 512 ≤ (i 0).val ∧ (i 0).val < win0_2.index ⟨(i 0).val / 512, hN⟩ (0 : Fin 2) * 512 + 512
    omega
  | ⟨1, _⟩ =>
    show win0_2.index ⟨(i 0).val / 512, hN⟩ (1 : Fin 2) * 8 ≤ (i 1).val ∧ (i 1).val < win0_2.index ⟨(i 0).val / 512, hN⟩ (1 : Fin 2) * 8 + 8
    omega

/-! ## The array after the run, and the run -/

/-- After the last step the result array is the routed array of the two arguments. -/
theorem final (c : Dev nD) :
    (dats m 0 c).arrAt 2 cfg0.N = routed (m ((c : Thread nD τ).loc main_arg0)) (m ((c : Thread nD τ).loc main_arg1)) :=
  (dats m 0 c).arrAt_eq_of_cover 2 _ (fun t _ => flushed_eq m c t) cover

/-- Every weakly fair execution of the kernel's program ends with the result array at the routed
    array of the arguments, and the arguments unchanged. -/
theorem run : θ_run defs (onTc (τ := τ) (main (F := Ideal))) ⟨m, fun _ => 0, ρ⟩ fun r => ∀ c : Dev nD,
      r.2.mem ((c : Thread nD τ).loc main_v2) = routed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.PatchRouter.Whole

end
-- ==== Proof.lean ====
/-
  A patch router against its reference: equal results over the extended reals.

  Input `x` is 16384 × 8192 and `w` is 8 × 1 × 32. Both programs view each row of `x` as 256
  consecutive patches of 32, add the patches of a row entry by entry, and take the inner product
  of the 32 patch sums with each of the 8 channels' 32 weights:

      out (b, o) = ∑ k < 32, (∑ p < 256, x (b, 32 p + k)) · w (o, 0, k).

  The kernel does this 512 rows at a time over a grid of 32 steps, with the weights squeezed and
  transposed to 32 × 8 beforehand and the product taken by a matrix multiply into a zero
  accumulator; the reference does it on whole arrays with a sum from zero and a contraction.
  Over the extended reals the matrix product and the contraction are the same finite sum of
  products, the lane sum and the host's sum are the same finite sum (0 + s = s), and the 32 blocks
  tile the result, so both result arrays are the one function above of the arguments. Only
  regrouping of finite sums is used, so the inputs' finiteness is not needed for the value.

  The pieces: the function itself (PatchSpec), the reference's stages read at an index (PatchRef),
  one grid step at an index (PatchBlock), and the blocks assembled into the array (PatchWhole).
  The three programs' runs terminate without fault and leave the arguments unchanged by the
  generated frames and the generated run of the reference; nothing was rewritten in idealizing
  the kernel, so that conjunct is trivial.
-/
import proofs.«115031_j23510650978886_1_alg».proof.Defs
import proofs.«115031_j23510650978886_1_alg».proof.Proof.Gen.Kernel
import proofs.«115031_j23510650978886_1_alg».proof.Proof.Gen.Kernel.Skeleton
import proofs.«115031_j23510650978886_1_alg».proof.Proof.Gen.Kernel.Launch
import proofs.«115031_j23510650978886_1_alg».proof.Proof.Gen.Kernel.Points
import proofs.«115031_j23510650978886_1_alg».proof.Proof.Gen.Kernel.Frame
import proofs.«115031_j23510650978886_1_alg».proof.Proof.Gen.KernelIdeal
import proofs.«115031_j23510650978886_1_alg».proof.Proof.Gen.KernelIdeal.Skeleton
import proofs.«115031_j23510650978886_1_alg».proof.Proof.Gen.KernelIdeal.Launch
import proofs.«115031_j23510650978886_1_alg».proof.Proof.Gen.KernelIdeal.Points
import proofs.«115031_j23510650978886_1_alg».proof.Proof.Gen.KernelIdeal.Frame
import proofs.«115031_j23510650978886_1_alg».proof.Proof.Gen.ReferenceIdeal
import proofs.«115031_j23510650978886_1_alg».proof.Proof.Gen.Pre_finite_inputs
import proofs.«115031_j23510650978886_1_alg».proof.Proof.Gen.KernelIdeal.Value
import proofs.«115031_j23510650978886_1_alg».proof.Proof.Gen.ReferenceIdeal.Run
import proofs.«115031_j23510650978886_1_alg».proof.Proof.Gen.ReferenceIdeal.Read
import proofs.«115031_j23510650978886_1_alg».proof.Proof.PatchSpec
import proofs.«115031_j23510650978886_1_alg».proof.Proof.PatchRef
import proofs.«115031_j23510650978886_1_alg».proof.Proof.PatchBlock
import proofs.«115031_j23510650978886_1_alg».proof.Proof.PatchWhole
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and `w` both programs end with the routed array of the
    arguments: the kernel's blocks assemble to it, and the reference's last stage is it. -/
theorem algebraic : Cert.algebraic_KernelIdeal_ReferenceIdeal := by
  intro m ρ m' ρ' _ hagree
  refine ⟨fun c => Cert.PatchRouter.routed (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.PatchRouter.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.PatchRouter.Ref.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
